-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S1600000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg2 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v23 main_v26
  let main_c_10 : IVec S_ 32 := constantI S_ 32 100000#32
  let main_v28 : IVec S1600000 32 := broadcastInDim S1600000 ![] bcast_S_S1600000 main_c_10
  let main_v29 : IVec S1600000 1 := cmpi .slt main_arg2 main_v28
  let main_c_11 : IVec S_ 1 := constantI S_ 1 1#1
  let main_v30 : IVec S_ 1 := (fun x v => Host.reduce IntOp.andi x v reducesTo_S1600000_S_d0 h_S_) main_v29 main_c_11
  let main_v31 : IVec S_ 1 := andi main_v27 main_v30
  main_v31

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 41
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S128x128, .bf16⟩
  | .hbm, ⟨38, _⟩ => ⟨S128x128, .bf16⟩
  | .hbm, ⟨39, _⟩ => ⟨S1x128, .f32⟩
  | .hbm, ⟨40, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics both programs compute, stated once over the argument arrays.

  A graph layer on 100000 nodes with 128 features and 1600000 weighted edges (row_e, col_e, val_e):
  result[r, j] = Σ_{e : row_e = r} (x[col_e, ·] · W_l[·, j]) · val_e  +  x[r, ·] · W_r[·, j]  +  bias[j].
  The reference multiplies every node's features by W_l first and then adds up the edges that land on a row (the form
  `Gat`); the kernel first adds up the weighted neighbour features of a row (`aggX`) and multiplies that one vector
  by W_l (the form `Kat`). Over the reals the two agree because the matrix product is linear in its left factor and
  finite sums commute; on the extended reals that needs x, val and W_l to be real numbers (`K_eq_G`).
  A column index is read as both programs read it: a negative one counts from the end (`wrapCol`), and the row that
  is fetched is that index clamped into the table (`srcRow`). An edge lands on row r when its row index, read as a
  signed integer, is r (`landsOn`); an edge whose row index names no row lands nowhere.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

abbrev SN : Shape := ⟨2, ![100000, 128]⟩
abbrev SE : Shape := ⟨1, ![1600000]⟩
abbrev SW : Shape := ⟨2, ![128, 128]⟩
abbrev SB : Shape := ⟨1, ![128]⟩

/-- Edge `e`'s column index as both programs read it: a negative index counts from the end of the table. -/
def wrapCol (cols : IVec SE 32) (e : Fin 1600000) : BitVec 32 :=
  Scalar.select (IntOp.cmpi .slt (cols (ix1 e)) 0#32) (IntOp.addi (cols (ix1 e)) 100000#32) (cols (ix1 e))

/-- The table row edge `e` fetches: its column index read signed and clamped into `[0, 99999]`. -/
def srcRow (cols : IVec SE 32) (e : Fin 1600000) : Fin 100000 :=
  ⟨min (wrapCol cols e).toInt.toNat 99999, by omega⟩

/-- The edges that land on row `r`: those whose row index, read signed, is `r`. -/
def landsOn (rows : IVec SE 32) (r : Fin 100000) : Finset (Fin 1600000) :=
  Finset.univ.filter fun e => (rows (ix1 e)).toInt = (r.val : ℤ)

/-- Row `r`'s weighted neighbour features, feature `k`. -/
def aggX (x : SN.Idx → EReal) (rows cols : IVec SE 32) (v : SE.Idx → EReal) (r : Fin 100000) (k : Fin 128) : EReal :=
  ∑ e ∈ landsOn rows r, x (ix2 (srcRow cols e) k) * v (ix1 e)

/-- The reference's arrangement: project every fetched row by `W_l`, then add up the edges of a row. -/
def Gat (x : SN.Idx → EReal) (rows cols : IVec SE 32) (v : SE.Idx → EReal) (wl wr : SW.Idx → EReal) (b : SB.Idx → EReal)
    (r : Fin 100000) (j : Fin 128) : EReal :=
  ((∑ e ∈ landsOn rows r, (∑ k : Fin 128, x (ix2 (srcRow cols e) k) * wl (ix2 k j)) * v (ix1 e))
    + ∑ k : Fin 128, x (ix2 r k) * wr (ix2 k j)) + b (ix1 j)

/-- The kernel's arrangement: add up a row's weighted neighbour features, then project that one vector by `W_l`. -/
def Kat (x : SN.Idx → EReal) (rows cols : IVec SE 32) (v : SE.Idx → EReal) (wl wr : SW.Idx → EReal) (b : SB.Idx → EReal)
    (r : Fin 100000) (j : Fin 128) : EReal :=
  ((∑ k : Fin 128, aggX x rows cols v r k * wl (ix2 k j))
    + ∑ k : Fin 128, x (ix2 r k) * wr (ix2 k j)) + b (ix1 j)

/-- `Gat` as an array. -/
def G (x : SN.Idx → EReal) (rows cols : IVec SE 32) (v : SE.Idx → EReal) (wl wr : SW.Idx → EReal) (b : SB.Idx → EReal) :
    SN.Idx → EReal :=
  fun i => Gat x rows cols v wl wr b ⟨(i 0).val, idx2_lt0 i⟩ ⟨(i 1).val, idx2_lt1 i⟩

/-- `Kat` as an array. -/
def K (x : SN.Idx → EReal) (rows cols : IVec SE 32) (v : SE.Idx → EReal) (wl wr : SW.Idx → EReal) (b : SB.Idx → EReal) :
    SN.Idx → EReal :=
  fun i => Kat x rows cols v wl wr b ⟨(i 0).val, idx2_lt0 i⟩ ⟨(i 1).val, idx2_lt1 i⟩

theorem G_ix2 (x : SN.Idx → EReal) (rows cols : IVec SE 32) (v : SE.Idx → EReal) (wl wr : SW.Idx → EReal) (b : SB.Idx → EReal)
    (r : Fin 100000) (j : Fin 128) : G x rows cols v wl wr b (ix2 r j) = Gat x rows cols v wl wr b r j := rfl

theorem K_ix2 (x : SN.Idx → EReal) (rows cols : IVec SE 32) (v : SE.Idx → EReal) (wl wr : SW.Idx → EReal) (b : SB.Idx → EReal)
    (r : Fin 100000) (j : Fin 128) : K x rows cols v wl wr b (ix2 r j) = Kat x rows cols v wl wr b r j := rfl

/-- The embedding of ℝ into the extended reals commutes with finite sums. -/
private theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Where the features, the edge weights and `W_l` are real numbers the two arrangements agree. -/
theorem K_eq_G (x : SN.Idx → EReal) (rows cols : IVec SE 32) (v : SE.Idx → EReal) (wl wr : SW.Idx → EReal) (b : SB.Idx → EReal)
    (hx : ∀ i, ∃ t : ℝ, x i = (t : EReal)) (hv : ∀ i, ∃ t : ℝ, v i = (t : EReal)) (hwl : ∀ i, ∃ t : ℝ, wl i = (t : EReal)) :
    K x rows cols v wl wr b = G x rows cols v wl wr b := by
  choose X hX using hx
  choose V hV using hv
  choose W hW using hwl
  funext i
  simp only [K, G]
  generalize (⟨(i 0).val, idx2_lt0 i⟩ : Fin 100000) = r
  generalize (⟨(i 1).val, idx2_lt1 i⟩ : Fin 128) = j
  unfold Kat Gat aggX
  -- both sides are (A + B) + c with the same B and c: only the first summand differs
  refine congrArg (· + b (ix1 j)) (congrArg (· + ∑ k : Fin 128, x (ix2 r k) * wr (ix2 k j)) ?_)
  -- every factor is a real number: move the whole identity into ℝ
  simp only [hX, hV, hW, ← EReal.coe_mul, ← coe_sum_real]
  refine congrArg (fun t : ℝ => (t : EReal)) ?_
  -- in ℝ: distribute, exchange the two finite sums, and compare term by term
  simp only [Finset.sum_mul]
  rw [Finset.sum_comm]
  refine Finset.sum_congr rfl fun e _ => Finset.sum_congr rfl fun k _ => ?_
  ring

end Cert.Sage

end
-- ==== Proof.PreFacts.lean ====
/-
  What the precondition says, read back as facts about the argument arrays: every entry of the node features, of the
  edge weights and of the left weight matrix is a real number (its absolute value is below +∞), and every column
  index, read as a signed integer, names a row of the node table: 0 ≤ col_e < 100000.
-/
import proofs.«411220_j29549374996932_3_alg».proof.Pre_finite_inputs
import proofs.«411220_j29549374996932_3_alg».proof.Proof.Gen.Pre_finite_inputs
import proofs.«411220_j29549374996932_3_alg».proof.Proof.Spec
import Idealize.ShloMosaic.Lib.ReduceAll
import Idealize.ShloMosaic.Lib.StableHlo.Predicate
import Idealize.ShloMosaic.Lib.ValueIdx

noncomputable section

namespace Cert.Sage.Pre

open Idealize.ShloMosaic Idealize.ShloMosaic.ValueIdx Cert.Sage

/-- The scalar shape has exactly one index. -/
private instance subsingleton_scalar_idx : Subsingleton Cert.Pre_finite_inputs.S_.Idx :=
  ⟨fun _ _ => funext fun d => d.elim0⟩

/-- The f32 pattern 0x7F800000 (exponent all ones, fraction zero, sign clear) denotes +∞. -/
private theorem ofBits_inf : Ideal.ofBits .f32 0x7F800000#32 = ⊤ := by simp [Ideal.ofBits, Ideal.ieee]

/-- One element: if |a| = max a (−a) compares below +∞ then a is a real number, since both −∞ and +∞ have |·| = +∞. -/
private theorem real_of_abs_lt_inf (a : Ideal .f32)
    (h : FloatOps.cmpf .olt (FloatOps.hostAbsf a) (FloatOps.ofBits (F := Ideal) .f32 0x7F800000#32) = 1#1) :
    ∃ t : ℝ, a = (t : EReal) := by
  have h' : Ideal.cmp .olt (max (a : EReal) (-(a : EReal))) (Ideal.ofBits .f32 0x7F800000#32) = 1#1 := h
  rw [ofBits_inf] at h'
  unfold Ideal.cmp at h'
  have hlt : max (a : EReal) (-(a : EReal)) < ⊤ := by
    simpa [StableHlo.Predicate.ofBool_eq_one_iff] using h'
  induction a using EReal.rec with
  | bot => simp at hlt
  | top => simp at hlt
  | coe r => exact ⟨r, rfl⟩

/-- A whole array: the conjunction over all entries of "|a_i| < +∞" being 1 makes every entry a real number. -/
private theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf a) (broadcastInDim s ![] hb (constant Cert.Pre_finite_inputs.S_ .f32 0x7F800000#32)))
          init hr h0 ix0 = 1#1) :
    ∀ i, ∃ t : ℝ, a i = (t : EReal) := fun i =>
  real_of_abs_lt_inf (a i) (Host.reduce_andi_all _ init hr h0 ix0 e i)

/-- A whole index array against a constant: the conjunction of "k ≤ c_i" (signed) being 1 gives it at every entry. -/
private theorem all_sge {s : Shape} {axes : List (Fin s.rank)} (c : IVec s 32) (k : BitVec 32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpi .sge c (broadcastInDim s ![] hb (constantI Cert.Pre_finite_inputs.S_ 32 k))) init hr h0 ix0 = 1#1) :
    ∀ i, k.toInt ≤ (c i).toInt := fun i =>
  IntOp.cmpi_sge.1 (Host.reduce_andi_all _ init hr h0 ix0 e i)

/-- Likewise the conjunction of "c_i < k" (signed) being 1 gives it at every entry. -/
private theorem all_slt {s : Shape} {axes : List (Fin s.rank)} (c : IVec s 32) (k : BitVec 32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpi .slt c (broadcastInDim s ![] hb (constantI Cert.Pre_finite_inputs.S_ 32 k))) init hr h0 ix0 = 1#1) :
    ∀ i, (c i).toInt < k.toInt := fun i =>
  IntOp.cmpi_slt.1 (Host.reduce_andi_all _ init hr h0 ix0 e i)

/-- The precondition holding (all ones) gives: features, edge weights and left weights real; column indices in range. -/
theorem facts_of_pre [Cert.Pre_finite_inputs.Facts]
    (x : FVec Ideal SN .f32) (rows cols : IVec SE 32) (v : FVec Ideal SE .f32) (wl wr : FVec Ideal SW .f32) (b : FVec Ideal SB .f32)
    (h : Cert.Pre_finite_inputs.fn (F := Ideal) x rows cols v wl wr b = (fun _ => 1#1)) :
    (∀ i, ∃ t : ℝ, x i = (t : EReal)) ∧ (∀ i, ∃ t : ℝ, v i = (t : EReal)) ∧ (∀ i, ∃ t : ℝ, wl i = (t : EReal))
      ∧ (∀ e : Fin 1600000, 0 ≤ (cols (ix1 e)).toInt ∧ (cols (ix1 e)).toInt < 100000) := by
  -- the precondition is a scalar: read it at its one index, where it is the conjunction of seven "all" reductions
  have h0 := congrFun h ix0
  simp only [Cert.Pre_finite_inputs.fn, Cert.Pre_finite_inputs.fn_part1, andi, IntOp.andi_eq_one] at h0
  obtain ⟨⟨⟨⟨⟨⟨hx, hv⟩, hwl⟩, _⟩, _⟩, hge⟩, hlt⟩ := h0
  refine ⟨all_real x _ _ _ _ hx, all_real v _ _ _ _ hv, all_real wl _ _ _ _ hwl, fun e => ⟨?_, ?_⟩⟩
  · have hk := all_sge cols 0#32 _ _ _ _ hge (ix1 e)
    rwa [show (0#32 : BitVec 32).toInt = 0 from by decide] at hk
  · have hk := all_slt cols 100000#32 _ _ _ _ hlt (ix1 e)
    rwa [show (100000#32 : BitVec 32).toInt = 100000 from by decide] at hk

end Cert.Sage.Pre

end
-- ==== Proof.LibRowGatherScatter.lean ====
/-
  Two host operations read at an index, for a table of rows: `stablehlo.gather` of whole rows of a rank-2 table
  `[N, C]` at a column of start indices `[E, 1]` (what `table[idx]` lowers to), and the accumulating float
  `stablehlo.scatter` of `[E, C]` update rows into a `[N, C]` operand at a column of row indices (what
  `segment_sum` and `.at[idx].add` lower to), at the exact-real instance.
  The gathered row `e` is the table's row at start index `idx[e, 0]`, read as a signed integer and clamped into
  `[0, N − 1]`. The scattered operand's entry `(r, k)` gains the entries `(e, k)` of exactly those update rows whose
  row index, read as a signed integer and NOT clamped, is `r`: an update row whose index names no row is dropped.
  General in the extents; the dimension numbers are taken by their fields, so any program's record with these fields
  is an instance.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The row gather -/

/-- The row gather's dimension numbers for a table `[N, C]`, start indices `[E, 1]` and result `[E, C]`. -/
private abbrev rowGatherDims (N E C : Nat)
    (wf : GatherDims.WF ⟨2, ![N, C]⟩ ⟨2, ![E, 1]⟩ ⟨2, ![E, C]⟩ [1] [0] [] [0] [] 1 ![1, C]) :
    GatherDims (⟨2, ![N, C]⟩ : Shape) (⟨2, ![E, 1]⟩ : Shape) (⟨2, ![E, C]⟩ : Shape) where
  offsetDims := [1]
  collapsedSliceDims := [0]
  operandBatchingDims := []
  startIndicesBatchingDims := []
  startIndexMap := [0]
  indexVectorDim := 1
  sliceSizes := ![1, C]
  wf := wf

/-- The row gather at its literal dimension numbers, read at `(e, k)`. -/
private theorem rowGatherDims_apply {α : Type} {N E C w : Nat} (hN : 0 < N)
    (wf : GatherDims.WF ⟨2, ![N, C]⟩ ⟨2, ![E, 1]⟩ ⟨2, ![E, C]⟩ [1] [0] [] [0] [] 1 ![1, C])
    (X : (⟨2, ![N, C]⟩ : Shape).Idx → α) (idx : IVec (⟨2, ![E, 1]⟩ : Shape) w) (e : Fin E) (k : Fin C) :
    Host.gather (rowGatherDims N E C wf) X idx (ix2 e k)
      = X (ix2 (⟨min (idx (ix2 e (0 : Fin 1))).toInt.toNat (N - 1), by omega⟩ : Fin N) k) := by
  unfold Host.gather
  congr 1
  funext a
  refine Fin.ext ?_
  match a with
  | ⟨0, _⟩ =>
    -- the collapsed axis: the clamped start index, no batching and no offset coordinate
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's own column
    show (rowGatherDims N E C wf).start (ix2 e k) idx 1 + (rowGatherDims N E C wf).batchCoord (ix2 e k) 1
        + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show (1 : Fin 2) ∉ (rowGatherDims N E C wf).startIndexMap from
        (by decide : (1 : Fin 2) ∉ ([0] : List (Fin 2))))]
    have hk : (1 : Fin 2) ∈ (rowGatherDims N E C wf).sKept :=
      (GatherDims.mem_sKept _ _).mpr ⟨(by decide : (1 : Fin 2) ∉ ([0] : List (Fin 2))), List.not_mem_nil⟩
    have ho : (rowGatherDims N E C wf).offCoord (ix2 e k) 1 = k.val := by
      unfold GatherDims.offCoord
      rw [dif_pos hk]
      rfl
    rw [hs, ho]
    omega

/-- A row gather read at `(e, k)`: the table at the clamped start row and the same column. -/
theorem rowGather_apply {α : Type} {N E C w : Nat} (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (X : (⟨2, ![N, C]⟩ : Shape).Idx → α) (idx : IVec (⟨2, ![E, 1]⟩ : Shape) w) (e : Fin E) (k : Fin C) :
    Host.gather d X idx (ix2 e k)
      = X (ix2 (⟨min (idx (ix2 e (0 : Fin 1))).toInt.toNat (N - 1), by omega⟩ : Fin N) k) := by
  obtain ⟨od, cd, ob, sb, sim, ivd, ss, wf⟩ := d
  dsimp only at h1 h2 h3 h4 h5 h6 h7
  subst h1 h2 h3 h4 h5 h6 h7
  exact rowGatherDims_apply hN wf X idx e k

/-! ## The row scatter-add -/

/-- An update index lands at operand index `i` exactly when, on every operand axis, its window's start plus its window
    coordinate is `i`'s coordinate: then the sum is inside the operand, and it is the index the scatter names. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro hres a
    split at hres
    · rename_i h
      have hf := Option.some.inj hres
      have ha : ((d.start j idx a + (d.window j a : ℤ)).toNat : ℤ) = ((i a).val : ℤ) :=
        congrArg (fun f : s.Idx => ((f a).val : ℤ)) hf
      rw [← ha]
      exact (Int.toNat_of_nonneg (h a).1).symm
    · exact absurd hres (by simp)
  · intro hall
    have h : ∀ a, 0 ≤ d.start j idx a + (d.window j a : ℤ) ∧ d.start j idx a + (d.window j a : ℤ) < (s.size a : ℤ) := by
      intro a
      rw [hall a]
      exact ⟨Int.natCast_nonneg _, Int.ofNat_lt.mpr (i a).isLt⟩
    rw [dif_pos h]
    congr 1
    funext a
    refine Fin.ext ?_
    show (d.start j idx a + (d.window j a : ℤ)).toNat = (i a).val
    rw [hall a]
    exact Int.toNat_natCast _

/-- The row scatter's dimension numbers for an operand `[N, C]`, row indices `[E, 1]` and updates `[E, C]`. -/
private abbrev rowScatterDims (N E C : Nat)
    (wf : ScatterDims.WF ⟨2, ![N, C]⟩ ⟨2, ![E, 1]⟩ ⟨2, ![E, C]⟩ [1] [0] [0] 1) :
    ScatterDims (⟨2, ![N, C]⟩ : Shape) (⟨2, ![E, 1]⟩ : Shape) (⟨2, ![E, C]⟩ : Shape) where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (idx : IVec (⟨2, ![E, 1]⟩ : Shape) w) (e : Fin E) (k' : Fin C)

/-- On the row axis the window of update `(e, k')` starts at its row index, read signed and not clamped … -/
private theorem rowScatter_start0 :
    (rowScatterDims N E C wf).start (ix2 e k') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
private theorem rowScatter_start1 : (rowScatterDims N E C wf).start (ix2 e k') idx 1 = 0 := by
  unfold ScatterDims.start
  rw [dif_neg (show (1 : Fin 2) ∉ (rowScatterDims N E C wf).scatterDimsToOperandDims from
    (by decide : (1 : Fin 2) ∉ ([0] : List (Fin 2))))]

/-- The row axis is inserted: no window coordinate there … -/
private theorem rowScatter_window0 : (rowScatterDims N E C wf).window (ix2 e k') 0 = 0 := by
  unfold ScatterDims.window
  rw [dif_neg (show (0 : Fin 2) ∉ (rowScatterDims N E C wf).sKept from
    (by decide : (0 : Fin 2) ∉ (List.finRange 2).filter (· ∉ ([0] : List (Fin 2)))))]

/-- … and on the column axis the window coordinate is the update's column. -/
private theorem rowScatter_window1 : (rowScatterDims N E C wf).window (ix2 e k') 1 = k'.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE AN UPDATE LANDS: update `(e, k')` lands at operand entry `(r, k)` exactly when its row index, read signed, is
    `r` and its column is `k`. -/
private theorem rowScatterDims_resultIdx?_iff (r : Fin N) (k : Fin C) :
    (rowScatterDims N E C wf).resultIdx? (ix2 e k') idx = some (ix2 r k)
      ↔ (idx (ix2 e (0 : Fin 1))).toInt = (r.val : ℤ) ∧ k' = k := by
  rw [resultIdx?_eq_some_iff]
  constructor
  · intro h
    have h0 : (rowScatterDims N E C wf).start (ix2 e k') idx 0 + ((rowScatterDims N E C wf).window (ix2 e k') 0 : ℤ)
        = (r.val : ℤ) := h 0
    have h1 : (rowScatterDims N E C wf).start (ix2 e k') idx 1 + ((rowScatterDims N E C wf).window (ix2 e k') 1 : ℤ)
        = (k.val : ℤ) := h 1
    rw [rowScatter_start0, rowScatter_window0] at h0
    rw [rowScatter_start1, rowScatter_window1] at h1
    exact ⟨by simpa using h0, Fin.ext (by omega)⟩
  · rintro ⟨h0, rfl⟩ a
    match a with
    | ⟨0, _⟩ =>
      show (rowScatterDims N E C wf).start (ix2 e k') idx 0 + ((rowScatterDims N E C wf).window (ix2 e k') 0 : ℤ)
        = (r.val : ℤ)
      rw [rowScatter_start0, rowScatter_window0, h0]; simp
    | ⟨1, _⟩ =>
      show (rowScatterDims N E C wf).start (ix2 e k') idx 1 + ((rowScatterDims N E C wf).window (ix2 e k') 1 : ℤ)
        = (k'.val : ℤ)
      rw [rowScatter_start1, rowScatter_window1]; simp

end RowScatter

/-- The row scatter-add at its literal dimension numbers, read at `(r, k)`. -/
private theorem rowScatterDims_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec (⟨2, ![E, 1]⟩ : Shape) w)
    (upd : (⟨2, ![E, C]⟩ : Shape).Idx → EReal) (r : Fin N) (k : Fin C) :
    Ideal.hostScatterAdd (rowScatterDims N E C wf) z idx upd (ix2 r k)
      = z (ix2 r k) + ∑ e ∈ Finset.univ.filter (fun e : Fin E => (idx (ix2 e (0 : Fin 1))).toInt = (r.val : ℤ)), upd (ix2 e k) := by
  unfold Ideal.hostScatterAdd
  congr 1
  -- the filtered sum over update indices is the double sum over rows and columns of the guarded entries
  rw [Finset.sum_filter, sum_idx2, Finset.sum_filter]
  refine Finset.sum_congr rfl fun e _ => ?_
  simp only [rowScatterDims_resultIdx?_iff]
  by_cases hP : (idx (ix2 e (0 : Fin 1))).toInt = (r.val : ℤ)
  · -- the row is named: of its columns only `k` lands at `(r, k)`
    simp only [hP, true_and, if_true]
    rw [Finset.sum_ite_eq' Finset.univ k (fun b => upd (ix2 e b))]
    simp
  · -- the row is not named: nothing of it lands there
    simp only [hP, false_and, if_false, Finset.sum_const_zero]

/-- A row scatter-add read at `(r, k)`: the operand there plus column `k` of the update rows whose index is `r`. -/
theorem rowScatterAdd_apply {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (z : (⟨2, ![N, C]⟩ : Shape).Idx → EReal) (idx : IVec (⟨2, ![E, 1]⟩ : Shape) w)
    (upd : (⟨2, ![E, C]⟩ : Shape).Idx → EReal) (r : Fin N) (k : Fin C) :
    Ideal.hostScatterAdd d z idx upd (ix2 r k)
      = z (ix2 r k) + ∑ e ∈ Finset.univ.filter (fun e : Fin E => (idx (ix2 e (0 : Fin 1))).toInt = (r.val : ℤ)), upd (ix2 e k) := by
  obtain ⟨uw, iw, sd, ivd, wf⟩ := d
  dsimp only at h1 h2 h3 h4
  subst h1 h2 h3 h4
  exact rowScatterDims_apply wf z idx upd r k

end Cert.Lib.RowOps

end
-- ==== Proof.RefValue.lean ====
/-
  The reference's result, read index by index, is the specification `G`: the edge sum of the projected rows, plus the
  node's own projection by W_r, plus the bias. The gather and the accumulating scatter are read through the row lemmas;
  every other stage through its generated read-at-an-index lemma.
-/
import proofs.«411220_j29549374996932_3_alg».proof.Proof.Gen.ReferenceIdeal.Read
import proofs.«411220_j29549374996932_3_alg».proof.Proof.Spec
import proofs.«411220_j29549374996932_3_alg».proof.Proof.LibRowGatherScatter
import Idealize.ShloMosaic.PureOps.Ideal.Laws
import Idealize.ShloMosaic.Lib.ValueIdx

noncomputable section

open scoped BigOperators

namespace Cert.Sage.Ref

open Idealize.ShloMosaic Idealize.ShloMosaic.ValueIdx Cert.ReferenceIdeal Cert.Sage

/-! ### The index maps of the generated stages at coordinate-built indices -/

private theorem lidx_v0_ix2 (s : Fin 100000) (j k : Fin 128) : Read.lidx_main_v0 (ix2 s j) k = ix2 s k := by
  funext a; match a with | ⟨0, _⟩ => rfl | ⟨1, _⟩ => rfl

private theorem ridx_v0_ix2 (s : Fin 100000) (j k : Fin 128) : Read.ridx_main_v0 (ix2 s j) k = ix2 k j := by
  funext a; match a with | ⟨0, _⟩ => rfl | ⟨1, _⟩ => rfl

private theorem lidx_v14_ix2 (s : Fin 100000) (j k : Fin 128) : Read.lidx_main_v14 (ix2 s j) k = ix2 s k := by
  funext a; match a with | ⟨0, _⟩ => rfl | ⟨1, _⟩ => rfl

private theorem ridx_v14_ix2 (s : Fin 100000) (j k : Fin 128) : Read.ridx_main_v14 (ix2 s j) k = ix2 k j := by
  funext a; match a with | ⟨0, _⟩ => rfl | ⟨1, _⟩ => rfl

private theorem idx_v6_ix2 (e : Fin 1600000) : Read.idx_main_v6 (ix2 e (0 : Fin 1)) = ix1 e := by
  funext a; match a with | ⟨0, _⟩ => rfl

private theorem idx_v12_ix2 (e : Fin 1600000) : Read.idx_main_v12 (ix2 e (0 : Fin 1)) = ix1 e := by
  funext a; match a with | ⟨0, _⟩ => rfl

private theorem idx_v8_v9_ix2 (e : Fin 1600000) (j : Fin 128) : Read.idx_main_v8 (Read.idx_main_v9 (ix2 e j)) = ix1 e := by
  funext a; match a with | ⟨0, _⟩ => rfl

private theorem idx_v16_v17_ix2 (r : Fin 100000) (j : Fin 128) : Read.idx_main_v16 (Read.idx_main_v17 (ix2 r j)) = ix1 j := by
  funext a; match a with | ⟨0, _⟩ => rfl

/-! ### The integer stages: the wrapped column index -/

/-- The start-index column the gather reads is the wrapped column index. -/
private theorem v6_at (x2 : (⟨S1600000, .i32⟩ : BufTy).Contents (Elt Ideal)) (e : Fin 1600000) :
    Read.val_main_v6 (F := Ideal) x2 (ix2 e (0 : Fin 1)) = wrapCol x2 e := by
  rw [Read.val_main_v6_apply, idx_v6_ix2, Read.val_main_v5_apply, Read.val_main_v2_apply, Read.val_main_v4_apply,
    Read.val_main_v1_apply, Read.val_main_v3_apply, Read.val_main_c_apply, Read.val_main_c_0_apply]
  rfl

/-- The row-index column the scatter reads is the row index. -/
private theorem v12_at (x1 : (⟨S1600000, .i32⟩ : BufTy).Contents (Elt Ideal)) (e : Fin 1600000) :
    Read.val_main_v12 (F := Ideal) x1 (ix2 e (0 : Fin 1)) = x1 (ix1 e) := by
  rw [Read.val_main_v12_apply, idx_v12_ix2]

/-- The broadcast edge weight at `(e, j)` is the weight of edge `e`. -/
private theorem v9_at (x3 : (⟨S1600000, .f32⟩ : BufTy).Contents (Elt Ideal)) (e : Fin 1600000) (j : Fin 128) :
    Read.val_main_v9 (F := Ideal) x3 (ix2 e j) = x3 (ix1 e) := by
  rw [Read.val_main_v9_apply, Read.val_main_v8_apply, idx_v8_v9_ix2]

/-- The broadcast bias at `(r, j)` is the bias of column `j`. -/
private theorem v17_at (x6 : (⟨S128, .f32⟩ : BufTy).Contents (Elt Ideal)) (r : Fin 100000) (j : Fin 128) :
    Read.val_main_v17 (F := Ideal) x6 (ix2 r j) = x6 (ix1 j) := by
  rw [Read.val_main_v17_apply, Read.val_main_v16_apply, idx_v16_v17_ix2]

/-- The scatter's operand is the zero array. -/
private theorem v11_at (i : S100000x128.Idx) : Read.val_main_v11 (F := Ideal) i = 0 := by
  rw [Read.val_main_v11_apply, Read.val_main_cst_apply]
  exact Ideal.ofBits_zero_f32

/-! ### The gather and the accumulating scatter over opaque operands -/

/-- The program's row gather at `(e, j)`: the table's row at the clamped start index, column `j`. -/
private theorem gather_at (X : S100000x128.Idx → EReal) (idx : IVec S1600000x1 32) (e : Fin 1600000) (j : Fin 128) :
    Host.gather gather_S100000x128_S1600000x1_S1600000x128_1_0_n_n_0_1_1128 X idx (ix2 e j)
      = X (ix2 (⟨min (idx (ix2 e (0 : Fin 1))).toInt.toNat (100000 - 1), by omega⟩ : Fin 100000) j) :=
  Cert.Lib.RowOps.rowGather_apply (by decide) gather_S100000x128_S1600000x1_S1600000x128_1_0_n_n_0_1_1128
    rfl rfl rfl rfl rfl rfl rfl X idx e j

/-- The program's accumulating row scatter at `(r, j)`: the operand there plus column `j` of the update rows that land on `r`. -/
private theorem scatter_at (z : S100000x128.Idx → EReal) (idx : IVec S1600000x1 32) (upd : S1600000x128.Idx → EReal)
    (r : Fin 100000) (j : Fin 128) :
    Host.scatterAdd (F := Ideal) (φ := .f32) scatter_S100000x128_S1600000x1_S1600000x128_1_0_0_1 z idx upd (ix2 r j)
      = z (ix2 r j) + ∑ e ∈ Finset.univ.filter (fun e : Fin 1600000 => (idx (ix2 e (0 : Fin 1))).toInt = (r.val : ℤ)),
          upd (ix2 e j) :=
  Cert.Lib.RowOps.rowScatterAdd_apply scatter_S100000x128_S1600000x1_S1600000x128_1_0_0_1 rfl rfl rfl rfl z idx upd r j

/-- The row the gather fetches for edge `e` is `srcRow`. -/
private theorem fetched_row (x2 : (⟨S1600000, .i32⟩ : BufTy).Contents (Elt Ideal)) (e : Fin 1600000)
    (h : min (Read.val_main_v6 (F := Ideal) x2 (ix2 e (0 : Fin 1))).toInt.toNat (100000 - 1) < 100000) :
    (⟨min (Read.val_main_v6 (F := Ideal) x2 (ix2 e (0 : Fin 1))).toInt.toNat (100000 - 1), h⟩ : Fin 100000) = srcRow x2 e :=
  Fin.ext (by
    show min (Read.val_main_v6 (F := Ideal) x2 (ix2 e (0 : Fin 1))).toInt.toNat (100000 - 1) = (srcRow x2 e).val
    rw [v6_at]; rfl)

/-! ### The float stages -/

/-- The gathered projection: entry `(e, j)` is the fetched row of the features times column `j` of `W_l`. -/
private theorem v7_at (x0 : (⟨S100000x128, .f32⟩ : BufTy).Contents (Elt Ideal)) (x2 : (⟨S1600000, .i32⟩ : BufTy).Contents (Elt Ideal))
    (x4 : (⟨S128x128, .f32⟩ : BufTy).Contents (Elt Ideal)) (e : Fin 1600000) (j : Fin 128) :
    Read.val_main_v7 (F := Ideal) x0 x2 x4 (ix2 e j) = ∑ k : Fin 128, x0 (ix2 (srcRow x2 e) k) * x4 (ix2 k j) := by
  unfold Read.val_main_v7
  rw [gather_at, fetched_row, Read.val_main_v0_apply]
  refine Finset.sum_congr rfl fun k _ => ?_
  rw [lidx_v0_ix2, ridx_v0_ix2]

/-- The scattered sum: entry `(r, j)` adds up, over the edges that land on `r`, the projected fetched row times the edge weight. -/
private theorem v13_at (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (r : Fin 100000) (j : Fin 128) :
    Read.val_main_v13 (F := Ideal) x0 x1 x2 x3 x4 (ix2 r j)
      = ∑ e ∈ landsOn x1 r, (∑ k : Fin 128, x0 (ix2 (srcRow x2 e) k) * x4 (ix2 k j)) * x3 (ix1 e) := by
  unfold Read.val_main_v13
  rw [scatter_at, v11_at, zero_add]
  have hf : (Finset.univ.filter fun e : Fin 1600000 =>
        (Read.val_main_v12 (F := Ideal) x1 (ix2 e (0 : Fin 1))).toInt = (r.val : ℤ)) = landsOn x1 r := by
    unfold landsOn
    refine Finset.filter_congr fun e _ => ?_
    rw [v12_at]
  rw [hf]
  refine Finset.sum_congr rfl fun e _ => ?_
  rw [Read.val_main_v10_apply, v7_at, v9_at]
  rfl

/-- The reference's last stage is `G` of the seven argument arrays. -/
theorem ref_eq_G
    (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 x5 : (⟨S128x128, .f32⟩ : BufTy).Contents (Elt Ideal))
    (x6 : (⟨S128, .f32⟩ : BufTy).Contents (Elt Ideal)) :
    Cert.ReferenceIdeal.Read.val_main_v18 (F := Ideal) x0 x1 x2 x3 x4 x5 x6 = G x0 x1 x2 x3 x4 x5 x6 := by
  funext i
  obtain ⟨r, j, rfl⟩ : ∃ (r : Fin 100000) (j : Fin 128), i = ix2 r j := ⟨i 0, i 1, eq_ix2 i⟩
  rw [G_ix2]
  unfold Gat
  rw [Read.val_main_v18_apply, Read.val_main_v15_apply, v17_at, Read.val_main_v14_apply, v13_at]
  simp only [lidx_v14_ix2, ridx_v14_ix2]
  rfl

end Cert.Sage.Ref

end
-- ==== Proof.LibReduceAnd.lean ====
/-
  A reduction by `and` over one-bit words that is fed only ones is one: the converse of reading a `jnp.all` back.
  A one-operand reduce at a result index `j` is the left fold, from the initial value, over the operand indices that
  drop to `j`; a fold by `and` that starts at 1 and meets only 1s ends at 1.
-/
import Idealize.ShloMosaic.Lib.Affine
import Idealize.ShloMosaic.PureOps.Reduce

namespace Cert.Lib.ReduceAnd

open Idealize.ShloMosaic

/-- A left fold by `and` from 1 over words that are all 1 is 1. -/
theorem foldl_andi_of_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    exact foldl_andi_of_ones f l _ (IntOp.andi_eq_one.2 ⟨hi, h a (List.mem_cons_self ..)⟩)
      (fun n hn => h n (List.mem_cons_of_mem _ hn))

/-- A reduce by `and` from an initial 1 is 1 at `j` when every operand index that drops to `j` holds a 1. -/
theorem reduce_andi_of_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_of_ones x _ _ hinit fun i hi => ?_
  rw [List.mem_filter] at hi
  exact hx i (of_decide_eq_true hi.2)

end Cert.Lib.ReduceAnd
-- ==== Proof.KerHost.lean ====
/-
  The arrays the kernel's one region finds, as functions of the argument arrays. Before the region the program
  fetches the rows x[col_e, ·] (a column index outside the table is replaced by a fill value — under the precondition
  0 ≤ col_e < 100000 that never happens, so the fetched row is the table's row), scales row e by val_e, and adds the
  scaled rows into a zero array at their row indices: entry (r, k) of that array is `aggX`. The two weight matrices
  change float format only, which is the identity at the exact-real instance, and the bias is re-laid as one row.
-/
import proofs.«411220_j29549374996932_3_alg».proof.Proof.Gen.KernelIdeal.Frame
import proofs.«411220_j29549374996932_3_alg».proof.Proof.Spec
import proofs.«411220_j29549374996932_3_alg».proof.Proof.LibRowGatherScatter
import proofs.«411220_j29549374996932_3_alg».proof.Proof.LibReduceAnd
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

noncomputable section

open scoped BigOperators

namespace Cert.Sage.Ker

open Idealize.ShloMosaic Idealize.ShloMosaic.TcCoe Idealize.ShloMosaic.ValueIdx Idealize.SL.Sem
open Cert.KernelIdeal Cert.KernelIdeal.Gen Cert.Sage

variable (m : (ℓ : Loc nD τ sig) → Buf (Elt Ideal) ℓ)

/-- The seven argument arrays as launched, at their literal types. -/
abbrev ax (c : Dev nD) : FVec Ideal S100000x128 .f32 := m ((c : Thread nD τ).loc main_arg0)
abbrev ar (c : Dev nD) : IVec S1600000 32 := m ((c : Thread nD τ).loc main_arg1)
abbrev ac (c : Dev nD) : IVec S1600000 32 := m ((c : Thread nD τ).loc main_arg2)
abbrev av (c : Dev nD) : FVec Ideal S1600000 .f32 := m ((c : Thread nD τ).loc main_arg3)
abbrev awl (c : Dev nD) : FVec Ideal S128x128 .f32 := m ((c : Thread nD τ).loc main_arg4)
abbrev awr (c : Dev nD) : FVec Ideal S128x128 .f32 := m ((c : Thread nD τ).loc main_arg5)
abbrev ab (c : Dev nD) : FVec Ideal S128 .f32 := m ((c : Thread nD τ).loc main_arg6)

/-! ### The host operations before the region, piece by piece, over any arrays

Each piece is one stage of the fetch, scale and add; its lemma reads it at one index. -/

section Pieces

variable {F : FTy → Type} [FloatOps F]
variable (x : FVec F S100000x128 .f32) (rows cols : IVec S1600000 32) (v : FVec F S1600000 .f32)

/-- The column indices, a negative one wrapped round (the table's length added). -/
private def wrapped : IVec S1600000 32 :=
  select (cmpi .slt cols (broadcastInDim S1600000 ![] bcast_S_S1600000 (constantI S_ 32 0#32)))
    (addi cols (broadcastInDim S1600000 ![] bcast_S_S1600000 (constantI S_ 32 100000#32))) cols

/-- The same as a column: the form the fetch reads its start indices in. -/
private def idxCol : IVec S1600000x1 32 :=
  broadcastInDim S1600000x1 ![0] bcast_S1600000_S1600000x1_0 (wrapped cols)

/-- Per row, whether the wrapped index lies in `0 … 99999`. -/
private def inRange : IVec S1600000x1 1 :=
  andi (cmpi .sge (idxCol cols) (broadcastInDim S1600000x1 ![] bcast_S_S1600000x1 (constantI S_ 32 0#32)))
    (cmpi .sle (idxCol cols) (broadcastInDim S1600000x1 ![0, 1] bcast_S1x1_S1600000x1_0_1
      (broadcastInDim S1x1 ![1] bcast_S1_S1x1_1 (constantI S1 32 99999#32))))

/-- That bit, reduced by `and` over the unit axis. -/
private def rowOk : IVec S1600000 1 :=
  Host.reduce IntOp.andi (inRange cols) (constantI S_ 1 1#1) reducesTo_S1600000x1_S1600000_d1 h_S_

/-- The fetched rows: row `e` is the table's row at the wrapped index, or the fill value where that index is out of range. -/
private def taken : FVec F S1600000x128 .f32 :=
  select (broadcastInDim S1600000x128 ![0] bcast_S1600000_S1600000x128_0 (rowOk cols))
    (Host.gather gather_S100000x128_S1600000x1_S1600000x128_1_0_n_n_0_1_1128 x (idxCol cols))
    (broadcastInDim S1600000x128 ![] bcast_S_S1600000x128 (constant (F := F) S_ .f32 0x7FC00000#32))

/-- The fetched rows, row `e` scaled by the edge value `v e`. -/
private def scaled : FVec F S1600000x128 .f32 :=
  mulf (taken x cols) (broadcastInDim S1600000x128 ![0, 1] bcast_S1600000x1_S1600000x128_0_1
    (broadcastInDim S1600000x1 ![0] bcast_S1600000_S1600000x1_0 v))

/-- The scaled rows added into a zero array at their row indices. -/
private def scattered : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 rows) (scaled x cols v)

/-- The fetch operations write neither the row indices … -/
private theorem take_keeps_rows (m : (ℓ : Loc nD τ sig) → Buf (Elt F) ℓ) (c : Dev nD) :
    StableHlo.after (hostOps0 (F := F)) (fun b => m (c, b)) (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- … nor the edge values. -/
private theorem take_keeps_vals (m : (ℓ : Loc nD τ sig) → Buf (Elt F) ℓ) (c : Dev nD) :
    StableHlo.after (hostOps0 (F := F)) (fun b => m (c, b)) (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- Contents moved to a buffer's own type and back are unchanged. -/
private theorem ofBuf_toBuf_same {T : BufTy} (x : StableHlo.TRef sig T) (v : T.Contents (Elt F)) :
    x.ofBuf (x.toBuf v) = v := by
  obtain ⟨r, h, hd, hs⟩ := x
  subst h
  rfl

/-- The first eight fetch operations make the wrapped index column … -/
private theorem take_idx (m : (ℓ : Loc nD τ sig) → Buf (Elt F) ℓ) (c : Dev nD) :
    (StableHlo.after (List.take 8 (hostOps0 (F := F))) (fun b => m (c, b)) (Proc.devRef .tc main_call0_v5) : IVec S1600000x1 32)
      = idxCol (m ((c : Thread nD τ).loc main_arg2)) := by
  unfold idxCol wrapped
  simp only [hostOps0, List.take_succ_cons, List.take_zero]
  after_results
  simp only [StableHlo.TRef.ofBuf, StableHlo.TRef.toBuf, cast_cast, cast_eq]

/-- … and leave the table as launched. -/
private theorem take_idx_keeps (m : (ℓ : Loc nD τ sig) → Buf (Elt F) ℓ) (c : Dev nD) :
    StableHlo.after (List.take 8 (hostOps0 (F := F))) (fun b => m (c, b)) (Proc.devRef .tc main_arg0)
      = m ((c : Thread nD τ).loc main_arg0) :=
  StableHlo.after_of_forall_not_mem (b := Proc.devRef .tc main_arg0) _ _ (List.forall_iff_forall_mem.mp (by
    simp only [hostOps0, List.take_succ_cons, List.take_zero, List.Forall, StableHlo.nullary_writes, StableHlo.unary_writes, StableHlo.binary_writes,
      StableHlo.ternary_writes, Finset.mem_singleton]
    repeat' apply And.intro
    all_goals exact StableHlo.devRef_ne_of_ne (by decide)))

set_option maxHeartbeats 2000000 in
/-- What the fetch operations leave at their result: the fetched rows, as a term of the table and the column indices.
    The remaining operations read the wrapped index column three times; it is kept as one name while they are composed. -/
private theorem take_term (m : (ℓ : Loc nD τ sig) → Buf (Elt F) ℓ) (c : Dev nD) :
    (StableHlo.after (hostOps0 (F := F)) (fun b => m (c, b)) (Proc.devRef .tc main_v0) : FVec F S1600000x128 .f32)
      = taken (m ((c : Thread nD τ).loc main_arg0)) (m ((c : Thread nD τ).loc main_arg2)) := by
  have hA := take_idx m c
  have hA0 := take_idx_keeps m c
  rw [← List.take_append_drop 8 (hostOps0 (F := F)), StableHlo.after_append]
  generalize StableHlo.after (List.take 8 (hostOps0 (F := F))) (fun b => m (c, b)) = R at hA hA0 ⊢
  unfold taken rowOk inRange
  generalize idxCol (m ((c : Thread nD τ).loc main_arg2)) = J at hA ⊢
  simp only [hostOps0, List.drop_succ_cons, List.drop_zero]
  after_results
  rw [hA, hA0]
  repeat rw [ofBuf_toBuf_same]
  simp only [StableHlo.TRef.ofBuf, StableHlo.TRef.toBuf, cast_eq]

/-- The array the region's first window stages is the scattered array of the four argument arrays it is computed from:
    the host operations before the region, composed. The equation holds at every float instance. -/
private theorem V_agg_term (m : (ℓ : Loc nD τ sig) → Buf (Elt F) ℓ) (c : Dev nD) :
    (V m c main_v6 : FVec F S100000x128 .f32)
      = scattered (m ((c : Thread nD τ).loc main_arg0)) (m ((c : Thread nD τ).loc main_arg1))
          (m ((c : Thread nD τ).loc main_arg2)) (m ((c : Thread nD τ).loc main_arg3)) := by
  have h0 := take_term m c
  have h1 := take_keeps_rows m c
  have h3 := take_keeps_vals m c
  unfold scattered scaled
  dsimp only [V]
  simp only [List.flatten_cons, List.flatten_nil, List.append_nil]
  rw [StableHlo.after_append]
  generalize StableHlo.after (hostOps0 (F := F)) (fun b => m (c, b)) = W at h0 h1 h3 ⊢
  simp only [hostOps0_1]
  after_results
  rw [h0, h1, h3]

end Pieces

/-! ### The pieces read at an index, at the exact-real instance -/

section AtIdeal

variable (x : FVec Ideal S100000x128 .f32) (rows cols : IVec S1600000 32) (v : FVec Ideal S1600000 .f32)

/-- The accumulating row scatter at `(r, k)`, over any operands: the operand there plus column `k` of the update rows that land on `r`. -/
private theorem scatter_at (z : S100000x128.Idx → EReal) (idx : IVec S1600000x1 32) (upd : S1600000x128.Idx → EReal)
    (r : Fin 100000) (k : Fin 128) :
    Host.scatterAdd (F := Ideal) (φ := .f32) scatter_S100000x128_S1600000x1_S1600000x128_1_0_0_1 z idx upd (ix2 r k)
      = z (ix2 r k) + ∑ e ∈ Finset.univ.filter (fun e : Fin 1600000 => (idx (ix2 e (0 : Fin 1))).toInt = (r.val : ℤ)),
          upd (ix2 e k) :=
  Cert.Lib.RowOps.rowScatterAdd_apply scatter_S100000x128_S1600000x1_S1600000x128_1_0_0_1 rfl rfl rfl rfl z idx upd r k

/-- The zero array reads `0` everywhere. -/
private theorem zeros_apply (i : S100000x128.Idx) :
    broadcastInDim S100000x128 ![] bcast_S_S100000x128 (constant (F := Ideal) S_ .f32 0x00000000#32) i = (0 : EReal) :=
  (broadcastInDim_apply _ bcast_S_S100000x128 (constant (F := Ideal) S_ .f32 0x00000000#32) i ix0
    (fun a => a.elim0)).trans ((constant_apply (s := S_) (φ := .f32) 0x00000000#32 ix0).trans Ideal.ofBits_zero_f32)

/-- A vector laid out as a column reads, at row `e`, the vector's entry `e`. -/
private theorem col_apply {α : Type} (y : S1600000.Idx → α) (e : Fin 1600000) (z : Fin 1) :
    broadcastInDim S1600000x1 ![0] bcast_S1600000_S1600000x1_0 y (ix2 e z) = y (ix1 e) :=
  broadcastInDim_apply _ bcast_S1600000_S1600000x1_0 y (ix2 e z) (ix1 e) (fun a => match a with
    | ⟨0, _⟩ => by show e.val = if (1600000 : Nat) = 1 then 0 else e.val; rw [if_neg (by decide)])

/-- The wrapped index column at row `e` is `wrapCol`. -/
private theorem idxCol_apply (e : Fin 1600000) (z : Fin 1) : idxCol cols (ix2 e z) = wrapCol cols e :=
  (col_apply (wrapped cols) e z).trans rfl

/-- A non-negative word is not below zero. -/
private theorem slt_zero_of_nonneg (a : BitVec 32) (h : 0 ≤ a.toInt) : IntOp.cmpi .slt a 0#32 = 0#1 := by
  have hs : a.slt 0#32 = false := by
    rw [BitVec.slt_eq_decide, decide_eq_false_iff_not]
    have h0 : (0#32 : BitVec 32).toInt = 0 := by decide
    omega
  show BitVec.ofBool (a.slt 0#32) = 0#1
  rw [hs]; rfl

/-- A word between `0` and `99999` passes both range tests. -/
private theorem inRange_word (a : BitVec 32) (h0 : 0 ≤ a.toInt) (h1 : a.toInt < 100000) :
    IntOp.andi (IntOp.cmpi .sge a 0#32) (IntOp.cmpi .sle a 99999#32) = 1#1 := by
  have e0 : (0#32 : BitVec 32).sle a = true := by
    rw [BitVec.sle_eq_decide, decide_eq_true_eq]
    have hz : (0#32 : BitVec 32).toInt = 0 := by decide
    omega
  have e1 : a.sle 99999#32 = true := by
    rw [BitVec.sle_eq_decide, decide_eq_true_eq]
    have hz : (99999#32 : BitVec 32).toInt = 99999 := by decide
    omega
  show IntOp.andi (BitVec.ofBool ((0#32 : BitVec 32).sle a)) (BitVec.ofBool (a.sle 99999#32)) = 1#1
  rw [e0, e1]; rfl

variable (hcol : ∀ e : Fin 1600000, 0 ≤ (cols (ix1 e)).toInt ∧ (cols (ix1 e)).toInt < 100000)
include hcol

/-- With every column index in `0 … 99999` nothing is wrapped … -/
private theorem wrapCol_eq (e : Fin 1600000) : wrapCol cols e = cols (ix1 e) := by
  unfold wrapCol
  rw [slt_zero_of_nonneg _ (hcol e).1, select_zero]

/-- … every row passes the range test … -/
private theorem inRange_one (i : S1600000x1.Idx) : inRange cols i = 1#1 := by
  obtain ⟨e, z, rfl⟩ : ∃ (e : Fin 1600000) (z : Fin 1), i = ix2 e z := ⟨i 0, i 1, eq_ix2 i⟩
  show IntOp.andi (IntOp.cmpi .sge (idxCol cols (ix2 e z)) 0#32) (IntOp.cmpi .sle (idxCol cols (ix2 e z)) 99999#32) = 1#1
  rw [idxCol_apply, wrapCol_eq cols hcol e]
  exact inRange_word _ (hcol e).1 (hcol e).2

/-- … and so does its reduction over the unit axis. -/
private theorem rowOk_one (e : Fin 1600000) : rowOk cols (ix1 e) = 1#1 :=
  Cert.Lib.ReduceAnd.reduce_andi_of_ones (inRange cols) (constantI S_ 1 1#1) reducesTo_S1600000x1_S1600000_d1 h_S_
    (ix1 e) rfl (fun i _ => inRange_one cols hcol i)

/-- So the fetched row `e` is the table's row `srcRow cols e`. -/
private theorem taken_apply (e : Fin 1600000) (k : Fin 128) : taken x cols (ix2 e k) = x (ix2 (srcRow cols e) k) := by
  have hm : broadcastInDim S1600000x128 ![0] bcast_S1600000_S1600000x128_0 (rowOk cols) (ix2 e k) = 1#1 :=
    (broadcastInDim_apply _ bcast_S1600000_S1600000x128_0 (rowOk cols) (ix2 e k) (ix1 e) (fun a => match a with
      | ⟨0, _⟩ => by show e.val = if (1600000 : Nat) = 1 then 0 else e.val; rw [if_neg (by decide)])).trans
      (rowOk_one cols hcol e)
  unfold taken
  rw [select_apply, hm, select_one]
  refine (Cert.Lib.RowOps.rowGather_apply (by decide) _ rfl rfl rfl rfl rfl rfl rfl x (idxCol cols) e k).trans ?_
  refine congrArg (fun q : Fin 100000 => x (ix2 q k)) (Fin.ext ?_)
  show min (idxCol cols (ix2 e (0 : Fin 1))).toInt.toNat (100000 - 1) = min (wrapCol cols e).toInt.toNat 99999
  rw [idxCol_apply]

/-- The scaled row `e` at column `k`. -/
private theorem scaled_apply (e : Fin 1600000) (k : Fin 128) :
    scaled x cols v (ix2 e k) = x (ix2 (srcRow cols e) k) * v (ix1 e) := by
  have hv : broadcastInDim S1600000x128 ![0, 1] bcast_S1600000x1_S1600000x128_0_1
      (broadcastInDim S1600000x1 ![0] bcast_S1600000_S1600000x1_0 v) (ix2 e k) = v (ix1 e) :=
    (broadcastInDim_apply _ bcast_S1600000x1_S1600000x128_0_1 _ (ix2 e k) (ix2 e (0 : Fin 1)) (fun a => match a with
      | ⟨0, _⟩ => by show e.val = if (1600000 : Nat) = 1 then 0 else e.val; rw [if_neg (by decide)]
      | ⟨1, _⟩ => by show 0 = if (1 : Nat) = 1 then 0 else k.val; rw [if_pos rfl])).trans (col_apply v e 0)
  unfold scaled
  rw [mulf_apply, taken_apply x cols hcol e k, hv]

/-- The scattered array at `(r, k)`: the sum, over the rows `e` that land on `r`, of the scaled entries. -/
private theorem scattered_apply (r : Fin 100000) (k : Fin 128) :
    scattered x rows cols v (ix2 r k) = aggX x rows cols v r k := by
  unfold scattered
  rw [scatter_at, zeros_apply, zero_add]
  have hf : (Finset.univ.filter fun e : Fin 1600000 =>
      (broadcastInDim S1600000x1 ![0] bcast_S1600000_S1600000x1_0 rows (ix2 e (0 : Fin 1))).toInt = (r.val : ℤ))
      = landsOn rows r := by
    unfold landsOn
    refine Finset.filter_congr fun e _ => ?_
    rw [col_apply rows e 0]
  rw [hf]
  unfold aggX
  exact Finset.sum_congr rfl fun e _ => scaled_apply x cols v hcol e k

end AtIdeal

/-- The scattered array the region's first window stages, entry `(r, k)`: row `r`'s weighted neighbour features. -/
theorem V_agg (c : Dev nD)
    (hcol : ∀ e : Fin 1600000, 0 ≤ (ac m c (ix1 e)).toInt ∧ (ac m c (ix1 e)).toInt < 100000)
    (r : Fin 100000) (k : Fin 128) :
    (V m c main_v6 : S100000x128.Idx → EReal) (ix2 r k) = aggX (ax m c) (ar m c) (ac m c) (av m c) r k := by
  have e : (V m c main_v6 : S100000x128.Idx → EReal) = scattered (ax m c) (ar m c) (ac m c) (av m c) :=
    V_agg_term m c
  rw [e]
  exact scattered_apply (ax m c) (ar m c) (ac m c) (av m c) hcol r k

/-- The left weight matrix as the region finds it: the argument. -/
theorem V_wl (c : Dev nD) (i : S128x128.Idx) :
    (V m c main_v7 : S128x128.Idx → EReal) i = (awl m c : S128x128.Idx → EReal) i := by
  have e : (V m c main_v7 : S128x128.Idx → EReal) = truncf .bf16 (awl m c) bitsLt_bf16_f32 := by
    dsimp only [V]
    simp only [hostOps0, hostOps0_1, List.flatten_cons, List.flatten_nil, List.append_nil, List.cons_append, List.nil_append]
    after_results
  rw [e]
  exact truncf_apply (awl m c) bitsLt_bf16_f32 i

/-- The right weight matrix as the region finds it: the argument. -/
theorem V_wr (c : Dev nD) (i : S128x128.Idx) :
    (V m c main_v8 : S128x128.Idx → EReal) i = (awr m c : S128x128.Idx → EReal) i := by
  have e : (V m c main_v8 : S128x128.Idx → EReal) = truncf .bf16 (awr m c) bitsLt_bf16_f32 := by
    dsimp only [V]
    simp only [hostOps0, hostOps0_1, List.flatten_cons, List.flatten_nil, List.append_nil, List.cons_append, List.nil_append]
    after_results
  rw [e]
  exact truncf_apply (awr m c) bitsLt_bf16_f32 i

/-- The bias as the region finds it, one row: entry `(0, j)` is the argument's entry `j`. -/
theorem V_bias (c : Dev nD) (j : Fin 128) :
    (V m c main_v9 : S1x128.Idx → EReal) (ix2 (0 : Fin 1) j) = (ab m c : S128.Idx → EReal) (ix1 j) := by
  have e : (V m c main_v9 : S1x128.Idx → EReal) = shapeCast S1x128 (ab m c) shapeCasts_S128_S1x128 := by
    dsimp only [V]
    simp only [hostOps0, hostOps0_1, List.flatten_cons, List.flatten_nil, List.append_nil, List.cons_append, List.nil_append]
    after_results
    rfl
  rw [e]
  -- the cast adds a leading unit axis: entry (0, j) is the operand's entry j
  refine (shapeCast_addUnit_apply ![128] (ab m c) shapeCasts_S128_S1x128 (ix2 (0 : Fin 1) j)).trans ?_
  exact congrArg (ab m c) (funext fun a => match a with | ⟨0, _⟩ => rfl)

end Cert.Sage.Ker

end
-- ==== Proof.KerBody.lean ====
/-
  The kernel body's one stored value read at an entry (p, q) of a block: row p of the aggregated block times column q
  of W_l, plus row p of the feature block times column q of W_r, plus the bias entry q. A change of float format is
  the identity at the exact-real instance, and each matrix product starts from a zero accumulator.
-/
import proofs.«411220_j29549374996932_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Body

open Idealize.ShloMosaic Idealize.ShloMosaic.ValueIdx Cert.KernelIdeal Cert.KernelIdeal.Gen

/-- Left operand index of the product, row axis: the output's row. -/
private theorem lhs_dot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Left operand index, column axis: the contraction coordinate. -/
private theorem lhs_dot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- Right operand index, row axis: the contraction coordinate. -/
private theorem rhs_dot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- Right operand index, column axis: the output's column. -/
private theorem rhs_dot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product started from the zero accumulator, at entry `(p, q)`: row `p` of the left factor against
    column `q` of the right one. -/
private theorem matmul_zero_apply (l : FVec Ideal S5000x128 .bf16) (r : FVec Ideal S128x128 .bf16)
    (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The stored value at `(p, q)`. -/
theorem pay_apply
    (a0 a1 : FVec Ideal S5000x128 .f32) (w2 w3 : FVec Ideal S128x128 .bf16) (b4 : FVec Ideal S1x128 .f32)
    (p : Fin 5000) (q : Fin 128) :
    k0_pay1 (F := Ideal) a0 a1 w2 w3 b4 (ix2 p q)
      = ((∑ k : Fin 128, a0 (ix2 p k) * w2 (ix2 k q)) + ∑ k : Fin 128, a1 (ix2 p k) * w3 (ix2 k q)) + b4 (ix2 (0 : Fin 1) q) := by
  unfold k0_pay1
  rw [shapeCast_self, shapeCast_self, shapeCast_self, shapeCast_self]
  refine (addf_apply _ _ _).trans ?_
  refine congrArg₂ (· + ·) ((addf_apply _ _ _).trans (congrArg₂ (· + ·) ?_ ?_)) ?_
  · exact matmul_zero_apply (truncf .bf16 a0 bitsLt_bf16_f32) w2 p q
  · exact matmul_zero_apply (truncf .bf16 a1 bitsLt_bf16_f32) w3 p q
  · exact broadcastTo_1b_ab_apply b4 broadcasts_S1x128_S5000x128 p q

end Cert.Sage.Body

end
-- ==== Proof.KerValue.lean ====
/-
  From blocks to the array. Grid point t (20 of them) stages rows [5000 t, 5000 t + 5000) of the aggregated array and of
  the features, the whole weight matrices and the bias row, and writes back rows [5000 t, 5000 t + 5000) of the result.
  What it writes back is block t of the one array `K` of the arguments; the 20 blocks cover every row, so after the run
  the result array is `K`.
-/
import proofs.«411220_j29549374996932_3_alg».proof.Proof.Gen.KernelIdeal.Value
import proofs.«411220_j29549374996932_3_alg».proof.Proof.Spec
import proofs.«411220_j29549374996932_3_alg».proof.Proof.KerHost
import proofs.«411220_j29549374996932_3_alg».proof.Proof.KerBody
import Idealize.ShloMosaic.Lib.Pipeline.Value
import Idealize.ShloMosaic.Lib.ValueIdx

set_option maxRecDepth 16384

noncomputable section

open scoped BigOperators

namespace Cert.Sage.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Sage Cert.Sage.Ker

variable (m : (ℓ : Loc nD τ sig) → Buf (Elt Ideal) ℓ) (ρ : Dev nD → PrngReg)

/-- The zero offsets of a load or store of a whole staging buffer, as a constant function. -/
theorem hz : (![0, 0] : Fin 2 → Nat) = fun _ => 0 := funext fun a => by fin_cases a <;> rfl

/-- The index maps over the 20 grid points: the aggregated array's and the features' windows move with the result's
    window along the rows and stay at column block 0; the weight matrices' and the bias row's windows stay at block
    (0, 0); the result's row-block index is at most 19. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block of the result is some grid point's. -/
theorem idx_onto : ∀ q : Fin 20, ∃ t : Fin cfg0.N, win0_5.index t = ![q.val, 0] :=
  (by decide +kernel : ∀ q : Fin 20, ∃ t : Fin grid0.N, win0_5.index t = ![q.val, 0])

/-! ## A block read at an entry

An entry of a window's block at point t sits in the window's array, on each axis, at the block index times the block's
extent plus the entry's own coordinate. Each holds for any contents `A` of the array. -/

/-- Window 0 (the aggregated array, blocks of 5000 rows): entry (p, k) of the block at t is entry (r, k) of the array,
    r the p-th row of the result's row block at t. -/
theorem read0 (A : S100000x128.Idx → EReal) (t : Fin cfg0.N) (p : Fin 5000) (k : Fin 128) (r : Fin 100000)
    (hr : r.val = win0_5.index t (0 : Fin 2) * 5000 + p.val) :
    ((cfg0.win 0).blk t).view.read (Elt Ideal) A (ix2 p k) = A (ix2 r k) := by
  obtain ⟨e0, e1, -⟩ := idx_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1 (the features, blocks of 5000 rows): the same rows. -/
theorem read1 (A : S100000x128.Idx → EReal) (t : Fin cfg0.N) (p : Fin 5000) (k : Fin 128) (r : Fin 100000)
    (hr : r.val = win0_5.index t (0 : Fin 2) * 5000 + p.val) :
    ((cfg0.win 1).blk t).view.read (Elt Ideal) A (ix2 p k) = A (ix2 r k) := by
  obtain ⟨-, -, e2, e3, -⟩ := idx_facts t
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Window 2 (the left weight matrix, whole): the block is the array. -/
theorem read2 (A : S128x128.Idx → EReal) (t : Fin cfg0.N) (k q : Fin 128) :
    ((cfg0.win 2).blk t).view.read (Elt Ideal) A (ix2 k q) = A (ix2 k q) := by
  obtain ⟨-, -, -, -, e4, e5, -⟩ := idx_facts t
  show A (((cfg0.win 2).blk t).view.emb (ix2 k q)) = A (ix2 k q)
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 3 (the right weight matrix, whole): the block is the array. -/
theorem read3 (A : S128x128.Idx → EReal) (t : Fin cfg0.N) (k q : Fin 128) :
    ((cfg0.win 3).blk t).view.read (Elt Ideal) A (ix2 k q) = A (ix2 k q) := by
  obtain ⟨-, -, -, -, -, -, e6, e7, -⟩ := idx_facts t
  show A (((cfg0.win 3).blk t).view.emb (ix2 k q)) = A (ix2 k q)
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Window 4 (the bias row, whole): the block is the array. -/
theorem read4 (A : S1x128.Idx → EReal) (t : Fin cfg0.N) (q : Fin 128) :
    ((cfg0.win 4).blk t).view.read (Elt Ideal) A (ix2 (0 : Fin 1) q) = A (ix2 (0 : Fin 1) q) := by
  obtain ⟨-, -, -, -, -, -, -, -, e8, e9, -⟩ := idx_facts t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Window 5 (the result, blocks of 5000 rows): entry (p, q) of the block at t is entry (r, q) of the array. -/
theorem read5 (A : S100000x128.Idx → EReal) (t : Fin cfg0.N) (p : Fin 5000) (q : Fin 128) (r : Fin 100000)
    (hr : r.val = win0_5.index t (0 : Fin 2) * 5000 + p.val) :
    ((cfg0.win 5).blk t).view.read (Elt Ideal) A (ix2 p q) = A (ix2 r q) := by
  obtain ⟨-, -, -, -, -, -, -, -, -, -, e10, -⟩ := idx_facts t
  show A (((cfg0.win 5).blk t).view.emb (ix2 p q)) = A (ix2 r q)
  refine congrArg A (funext fun a => Fin.ext ?_)
  match a with
  | ⟨0, _⟩ => show win0_5.index t (0 : Fin 2) * 5000 + 1 * p.val = r.val; omega
  | ⟨1, _⟩ => show win0_5.index t (1 : Fin 2) * 128 + 1 * q.val = q.val; omega

/-! ## The input blocks at an entry, as the argument arrays -/

/-- The aggregated block at (p, k): row r's weighted neighbour features. -/
theorem blk0_read (c : Dev nD)
    (hcol : ∀ e : Fin 1600000, 0 ≤ (ac m c (ix1 e)).toInt ∧ (ac m c (ix1 e)).toInt < 100000)
    (t : Fin cfg0.N) (p : Fin 5000) (k : Fin 128) (r : Fin 100000)
    (hr : r.val = win0_5.index t (0 : Fin 2) * 5000 + p.val) :
    (iblk m c 0 t : S5000x128.Idx → EReal) (ix2 p k) = aggX (ax m c) (ar m c) (ac m c) (av m c) r k := by
  refine Eq.trans ?_ (V_agg m c hcol r k)
  unfold iblk
  exact read0 _ t p k r hr

/-- The feature block at (p, k): the features' entry (r, k). -/
theorem blk1_read (c : Dev nD) (t : Fin cfg0.N) (p : Fin 5000) (k : Fin 128) (r : Fin 100000)
    (hr : r.val = win0_5.index t (0 : Fin 2) * 5000 + p.val) :
    (iblk m c 1 t : S5000x128.Idx → EReal) (ix2 p k) = (ax m c : S100000x128.Idx → EReal) (ix2 r k) := by
  have h : (V m c main_arg0 : S100000x128.Idx → EReal) (ix2 r k) = (ax m c : S100000x128.Idx → EReal) (ix2 r k) := by
    rw [V_main_arg0]
  refine Eq.trans ?_ h
  unfold iblk
  exact read1 _ t p k r hr

/-- The left weight block at (k, q): the left weight matrix's entry. -/
theorem blk2_read (c : Dev nD) (t : Fin cfg0.N) (k q : Fin 128) :
    (iblk m c 2 t : S128x128.Idx → EReal) (ix2 k q) = (awl m c : S128x128.Idx → EReal) (ix2 k q) := by
  refine Eq.trans ?_ (V_wl m c (ix2 k q))
  unfold iblk
  exact read2 _ t k q

/-- The right weight block at (k, q): the right weight matrix's entry. -/
theorem blk3_read (c : Dev nD) (t : Fin cfg0.N) (k q : Fin 128) :
    (iblk m c 3 t : S128x128.Idx → EReal) (ix2 k q) = (awr m c : S128x128.Idx → EReal) (ix2 k q) := by
  refine Eq.trans ?_ (V_wr m c (ix2 k q))
  unfold iblk
  exact read3 _ t k q

/-- The bias block at (0, q): the bias's entry q. -/
theorem blk4_read (c : Dev nD) (t : Fin cfg0.N) (q : Fin 128) :
    (iblk m c 4 t : S1x128.Idx → EReal) (ix2 (0 : Fin 1) q) = (ab m c : S128.Idx → EReal) (ix1 q) := by
  refine Eq.trans ?_ (V_bias m c q)
  unfold iblk
  exact read4 _ t q

/-! ## What a point writes back, the cover, and the array after the run -/

/-- Point t writes back block t of `K` of the arguments: at entry (p, q) of the block the body leaves row p of the
    aggregated block times column q of the left weights, plus row p of the feature block times column q of the right
    weights, plus the bias entry q; the blocks are rows [5000 t, 5000 t + 5000) of the aggregate and of the features,
    so this is `Kat` at row 5000 t + p. -/
theorem flushed_eq (c : Dev nD)
    (hcol : ∀ e : Fin 1600000, 0 ≤ (ac m c (ix1 e)).toInt ∧ (ac m c (ix1 e)).toInt < 100000) (t : Fin cfg0.N) :
    (dats m 0 c).flushed 5 t
      = ((cfg0.win 5).blk t).view.read (Elt Ideal) (K (ax m c) (ar m c) (ac m c) (av m c) (awl m c) (awr m c) (ab m c)) := by
  rw [flushed5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  obtain ⟨-, -, -, -, -, -, -, -, -, -, -, hle⟩ := idx_facts t
  have hlt : win0_5.index t (0 : Fin 2) * 5000 + p.val < 100000 := by have := p.isLt; omega
  refine (Cert.Sage.Body.pay_apply _ _ _ _ _ p q).trans ?_
  refine Eq.trans ?_ (read5 (K (ax m c) (ar m c) (ac m c) (av m c) (awl m c) (awr m c) (ab m c)) t p q ⟨_, hlt⟩ rfl).symm
  rw [K_ix2]
  unfold Kat
  refine congrArg₂ (· + ·) (congrArg₂ (· + ·) (Finset.sum_congr rfl fun k _ => ?_) (Finset.sum_congr rfl fun k _ => ?_)) (blk4_read m c t q)
  · rw [blk0_read m c hcol t p k ⟨_, hlt⟩ rfl, blk2_read m c t k q]
  · rw [blk1_read m c t p k ⟨_, hlt⟩ rfl, blk3_read m c t k q]

/-- An entry of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v10).slice (win0_5.rect t)).set ↔ _
  rw [View.set_slice_whole, Rect.mem_set_unit]
  exact Iff.rfl

/-- The 20 row blocks cover the result array: row r is in the block of the point whose row-block index is r / 5000. -/
theorem cover (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the run the result array is `K` of the argument arrays. -/
theorem final (c : Dev nD)
    (hcol : ∀ e : Fin 1600000, 0 ≤ (ac m c (ix1 e)).toInt ∧ (ac m c (ix1 e)).toInt < 100000) :
    (dats m 0 c).arrAt 5 cfg0.N = K (ax m c) (ar m c) (ac m c) (av m c) (awl m c) (awr m c) (ab m c) :=
  (dats m 0 c).arrAt_eq_of_cover 5 (K (ax m c) (ar m c) (ac m c) (av m c) (awl m c) (awr m c) (ab m c))
    (fun t _ => flushed_eq m c hcol t) cover

/-- The kernel's run with its result named: `K` of the arguments; the arguments unchanged. -/
theorem run (hcol : ∀ (c : Dev nD) (e : Fin 1600000), 0 ≤ (ac m c (ix1 e)).toInt ∧ (ac m c (ix1 e)).toInt < 100000) :
    θ_run defs (onTc (τ := τ) (main (F := Ideal))) ⟨m, fun _ => 0, ρ⟩ fun r => ∀ c : Dev nD,
      r.2.mem ((c : Thread nD τ).loc main_v10) = K (ax m c) (ar m c) (ac m c) (av m c) (awl m c) (awr m c) (ab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hcol c)), (h c).2⟩) (run_blocks m ρ)

end Cert.Sage.KerValue

end
-- ==== Proof.lean ====
/-
  The certificate of a graph layer: on 100000 nodes with 128 features and 1600000 weighted edges,
  result[r, j] = Σ_{e : row_e = r} (x[col_e, ·] · W_l[·, j]) · val_e + x[r, ·] · W_r[·, j] + bias[j].
  The reference projects every node by W_l and then adds up the edges of a row; the kernel adds up the weighted
  neighbour features of a row on the host, and one fused call then multiplies that sum by W_l, adds the node's own
  projection by W_r and the bias, twenty blocks of 5000 rows. The two agree because the matrix product is linear in
  its left factor and finite sums commute — over the reals, so the features, the edge weights and W_l are taken
  finite — and because under 0 ≤ col_e < 100000 the kernel's fetch of a row never meets its out-of-range fill.
  The three frames are the generated ones (the reference's is its run with the result dropped); the idealization
  rewrote nothing, so `preserves` is `True`.
-/
import proofs.«411220_j29549374996932_3_alg».proof.Defs
import proofs.«411220_j29549374996932_3_alg».proof.Proof.Gen.Kernel
import proofs.«411220_j29549374996932_3_alg».proof.Proof.Gen.Kernel.Skeleton
import proofs.«411220_j29549374996932_3_alg».proof.Proof.Gen.Kernel.Launch
import proofs.«411220_j29549374996932_3_alg».proof.Proof.Gen.Kernel.Points
import proofs.«411220_j29549374996932_3_alg».proof.Proof.Gen.Kernel.Frame
import proofs.«411220_j29549374996932_3_alg».proof.Proof.Gen.KernelIdeal
import proofs.«411220_j29549374996932_3_alg».proof.Proof.Gen.KernelIdeal.Skeleton
import proofs.«411220_j29549374996932_3_alg».proof.Proof.Gen.KernelIdeal.Launch
import proofs.«411220_j29549374996932_3_alg».proof.Proof.Gen.KernelIdeal.Points
import proofs.«411220_j29549374996932_3_alg».proof.Proof.Gen.KernelIdeal.Frame
import proofs.«411220_j29549374996932_3_alg».proof.Proof.Gen.ReferenceIdeal
import proofs.«411220_j29549374996932_3_alg».proof.Proof.Gen.Pre_finite_inputs
import proofs.«411220_j29549374996932_3_alg».proof.Proof.Gen.KernelIdeal.Value
import proofs.«411220_j29549374996932_3_alg».proof.Proof.Gen.ReferenceIdeal.Run
import proofs.«411220_j29549374996932_3_alg».proof.Proof.Gen.ReferenceIdeal.Read
import proofs.«411220_j29549374996932_3_alg».proof.Proof.Spec
import proofs.«411220_j29549374996932_3_alg».proof.Proof.PreFacts
import proofs.«411220_j29549374996932_3_alg».proof.Proof.RefValue
import proofs.«411220_j29549374996932_3_alg».proof.Proof.KerValue
import Idealize.ShloMosaic.Adequacy
import Idealize.ShloMosaic.Init

noncomputable section

namespace Cert.Proof

open Idealize.ShloMosaic Idealize.ShloMosaic.TcCoe Idealize.SL.Sem

/-- Both idealized programs end at the specification `G` of the (agreeing) argument arrays: the kernel at the
    arrangement `K`, which is `G` where features, edge weights and W_l are real; the reference at `G` as it stands. -/
theorem algebraic : Cert.algebraic_KernelIdeal_ReferenceIdeal := by
  intro m ρ m' ρ' hpre hagree
  have hf := fun c => Cert.Sage.Pre.facts_of_pre _ _ _ _ _ _ _ (hpre c)
  refine ⟨fun c => Cert.Sage.G (Cert.Sage.Ker.ax m c) (Cert.Sage.Ker.ar m c) (Cert.Sage.Ker.ac m c) (Cert.Sage.Ker.av m c)
    (Cert.Sage.Ker.awl m c) (Cert.Sage.Ker.awr m c) (Cert.Sage.Ker.ab m c), ?_, ?_⟩
  · refine (θ_run Cert.KernelIdeal.defs _ _).mono (fun r h c => ⟨(h c).1.trans ?_, (h c).2⟩)
      (Cert.Sage.KerValue.run m ρ (fun c => (hf c).2.2.2))
    exact Cert.Sage.K_eq_G _ _ _ _ _ _ _ (hf c).1 (hf c).2.1 (hf c).2.2.1
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v18_eq (F := Ideal) _ _ _ _ _ _ _)).trans
      ((Cert.Sage.Ref.ref_eq_G _ _ _ _ _ _ _).trans ?_)
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
